-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8x256x256 : Shape := ⟨3, ![8, 256, 256]⟩
abbrev S2048 : Shape := ⟨1, ![2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x8192 .f32) (main_arg1 : FVec F S8x256x256 .f32) (main_arg2 : FVec F S2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x8192 : Shape := ⟨2, ![2048, 8192]⟩
abbrev S8x256x256 : Shape := ⟨3, ![8, 256, 256]⟩
abbrev S2048 : Shape := ⟨1, ![2048]⟩
abbrev S8x256x8192 : Shape := ⟨3, ![8, 256, 8192]⟩
abbrev S8x256x1 : Shape := ⟨3, ![8, 256, 1]⟩
abbrev S1x256x256 : Shape := ⟨3, ![1, 256, 256]⟩
abbrev S1x256x2048 : Shape := ⟨3, ![1, 256, 2048]⟩
abbrev S1x256x1 : Shape := ⟨3, ![1, 256, 1]⟩
abbrev S256x256 : Shape := ⟨2, ![256, 256]⟩
abbrev S256x2048 : Shape := ⟨2, ![256, 2048]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8x256x256, .f32⟩
  | .hbm, ⟨2, _⟩ => ⟨S2048, .f32⟩
  | .hbm, ⟨3, _⟩ => ⟨S8x256x8192, .f32⟩
  | .hbm, ⟨4, _⟩ => ⟨S8x256x1, .f32⟩
  | .hbm, ⟨5, _⟩ => ⟨S8x256x8192, .f32⟩
  | .hbm, ⟨6, _⟩ => ⟨S2048x8192, .f32⟩
  | .local _ .vmem, ⟨0, _⟩ => ⟨S1x256x256, .f32⟩
  | .local _ .vmem, ⟨1, _⟩ => ⟨S1x256x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x1, .f32⟩
  | .local _ .vmem, ⟨5, _⟩ => ⟨S1x256x1, .f32⟩
  | .local _ .vmem, ⟨6, _⟩ => ⟨S1x256x2048, .f32⟩
  | .local _ .vmem, ⟨7, _⟩ => ⟨S1x256x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x8192_S8x256x8192 : S2048x8192.ShapeCasts S8x256x8192
  shapeCasts_S2048_S8x256x1 : S2048.ShapeCasts S8x256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  shapeCasts_S256x2048_S1x256x2048 : S256x2048.ShapeCasts S1x256x2048
  shapeCasts_S8x256x8192_S2048x8192 : S8x256x8192.ShapeCasts S2048x8192
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x256x256.size a
  hwx0_0 : ∀ i : grid0.Coords, EltTy.bits .f32 = 32 ∨ (Rect.block (s := S8x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x256x8192.size a
  hwx0_1 : ∀ i : grid0.Coords, EltTy.bits .f32 = 32 ∨ (Rect.block (s := S8x256x8192) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x256x1.size a
  hwx0_2 : ∀ i : grid0.Coords, EltTy.bits .f32 = 32 ∨ (Rect.block (s := S8x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x256x8192.size a
  hwx0_3 : ∀ i : grid0.Coords, EltTy.bits .f32 = 32 ∨ (Rect.block (s := S8x256x8192) S1x256x2048.size (cc0_transform_3 i) (hinb0_3 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S8x256x256 : Shape := ⟨3, ![8, 256, 256]⟩
abbrev S2048 : Shape := ⟨1, ![2048]⟩
abbrev S8x256x8192 : Shape := ⟨3, ![8, 256, 8192]⟩
abbrev S2048x1 : Shape := ⟨2, ![2048, 1]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8x256x256, .f32⟩
  | .hbm, ⟨2, _⟩ => ⟨S2048, .f32⟩
  | .hbm, ⟨3, _⟩ => ⟨S8x256x8192, .f32⟩
  | .hbm, ⟨4, _⟩ => ⟨S8x256x8192, .f32⟩
  | .hbm, ⟨5, _⟩ => ⟨S2048x8192, .f32⟩
  | .hbm, ⟨6, _⟩ => ⟨S2048x1, .f32⟩
  | .hbm, ⟨7, _⟩ => ⟨S2048x8192, .f32⟩
  | .hbm, ⟨8, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S2048x8192_S8x256x8192 : S2048x8192.ShapeCasts S8x256x8192
  shapeCasts_S8x256x8192_S2048x8192 : S8x256x8192.ShapeCasts S2048x8192
  bcast_S2048_S2048x1_0 : S2048.BroadcastsInDim S2048x1 (![0] : Fin 1 → Fin S2048x1.rank)
  bcast_S2048x1_S2048x8192_0_1 : S2048x1.BroadcastsInDim S2048x8192 (![0, 1] : Fin 2 → Fin S2048x8192.rank)
  dot_S8x256x256_S8x256x8192_S8x256x8192_2_1_1_2_0_0_wf : DotDims.WF S8x256x256 S8x256x8192 S8x256x8192 [2] [1] [1] [2] [0] [0]

variable [Facts₀]

def dot_S8x256x256_S8x256x8192_S8x256x8192_2_1_1_2_0_0 : DotDims S8x256x256 S8x256x8192 S8x256x8192 where
  lhsContracting := [2]
  rhsContracting := [1]
  lhsNonContracting := [1]
  rhsNonContracting := [2]
  lhsBatch := [0]
  rhsBatch := [0]
  wf := dot_S8x256x256_S8x256x8192_S8x256x8192_2_1_1_2_0_0_wf

class Facts : Prop extends Facts₀ where

variable [Facts]
-- ==== Proof.BlockLinearSpec.lean ====
/-
  THE FUNCTION BOTH PROGRAMS COMPUTE. The 2048 rows of the input are eight consecutive groups of 256 rows. Group k is
  multiplied on the left by the k-th 256 × 256 block, and every row then gets its own bias entry:

      out[256·k + r, b] = (Σ_j blocks[k, r, j] · inp[256·k + j, b]) + bias[256·k + r]      (k < 8, r < 256, b < 8192).

  `stacked` is that function with the rows still in groups (an 8 × 256 × 8192 array, entry (k, r, b)); the result of
  either program is its row-major reshape to 2048 × 8192. `stackedOf` is the same sum written over the arrays the
  kernel's windows stage: the blocks, the input reshaped to 8 × 256 × 8192 and the bias reshaped to 8 × 256 × 1. A row-major
  reshape that splits the row axis 2048 = 8 · 256 reads row 256·k + r at (k, r), so the two are one function
  (`stackedOf_reshapes`). No law of the extended reals is used: the two sides are the same sum of the same products
  plus the same bias entry.
-/
import Idealize.ShloMosaic.Lib.ValueIdx
import Idealize.ShloMosaic.Lib.Pipeline.Value
import Idealize.ShloMosaic.PureOps.Ideal.Laws

open scoped BigOperators

noncomputable section

namespace Cert.BlockLinear

open Idealize.ShloMosaic Idealize.ShloMosaic.ValueIdx

/-- The input and the result: 2048 rows, 8192 columns. -/
abbrev SInp : Shape := ⟨2, ![2048, 8192]⟩
/-- The eight diagonal blocks. -/
abbrev SBlk : Shape := ⟨3, ![8, 256, 256]⟩
/-- The bias, one entry per row. -/
abbrev SBias : Shape := ⟨1, ![2048]⟩
/-- The rows in eight groups of 256. -/
abbrev SStk : Shape := ⟨3, ![8, 256, 8192]⟩
/-- The bias in eight groups of 256, as a column. -/
abbrev SCol : Shape := ⟨3, ![8, 256, 1]⟩

/-- Row r of group k is row 256·k + r. -/
def rowOf (k : Fin 8) (r : Fin 256) : Fin 2048 := ⟨k.val * 256 + r.val, by omega⟩

theorem rowOf_val (k : Fin 8) (r : Fin 256) : (rowOf k r).val = k.val * 256 + r.val := rfl

/-- Entry (k, r, b) of the block-diagonal product plus bias. -/
def entry (X : SInp.Idx → EReal) (W : SBlk.Idx → EReal) (β : SBias.Idx → EReal) (k : Fin 8) (r : Fin 256) (b : Fin 8192) : EReal :=
  (∑ j : Fin 256, W (ix3 k r j) * X (ix2 (rowOf k j) b)) + β (ix1 (rowOf k r))

/-- The result with its rows in groups. -/
def stacked (X : SInp.Idx → EReal) (W : SBlk.Idx → EReal) (β : SBias.Idx → EReal) : SStk.Idx → EReal :=
  fun i => entry X W β ⟨(i 0).val, (i 0).isLt⟩ ⟨(i 1).val, (i 1).isLt⟩ ⟨(i 2).val, (i 2).isLt⟩

/-- The same sum over the grouped input and the bias column, at (k, r, b). -/
def entryOf (W : SBlk.Idx → EReal) (X3 : SStk.Idx → EReal) (β3 : SCol.Idx → EReal) (k : Fin 8) (r : Fin 256) (b : Fin 8192) : EReal :=
  (∑ j : Fin 256, W (ix3 k r j) * X3 (ix3 k j b)) + β3 (ix3 k r (0 : Fin 1))

/-- … and as an array. -/
def stackedOf (W : SBlk.Idx → EReal) (X3 : SStk.Idx → EReal) (β3 : SCol.Idx → EReal) : SStk.Idx → EReal :=
  fun i => entryOf W X3 β3 ⟨(i 0).val, (i 0).isLt⟩ ⟨(i 1).val, (i 1).isLt⟩ ⟨(i 2).val, (i 2).isLt⟩

/-- The grouped input at (k, j, b) is the input at row 256·k + j. -/
theorem reshape_inp_apply (X : SInp.Idx → EReal) (h : SInp.ShapeCasts SStk) (k : Fin 8) (j : Fin 256) (b : Fin 8192) :
    shapeCast SStk X h (ix3 k j b) = X (ix2 (rowOf k j) b) :=
  shapeCast_apply X h _ _ (by
    rw [Shape.rowMajor_val_two, Shape.rowMajor_val_three]
    show (k.val * 256 + j.val) * 8192 + b.val = (k.val * 256 + j.val) * 8192 + b.val
    rfl)

/-- The bias column at (k, r, 0) is the bias at row 256·k + r. -/
theorem reshape_bias_apply (β : SBias.Idx → EReal) (h : SBias.ShapeCasts SCol) (k : Fin 8) (r : Fin 256) :
    shapeCast SCol β h (ix3 k r (0 : Fin 1)) = β (ix1 (rowOf k r)) :=
  shapeCast_apply β h _ _ (by
    rw [Shape.rowMajor_val_one, Shape.rowMajor_val_three]
    show k.val * 256 + r.val = (k.val * 256 + r.val) * 1 + 0
    omega)

/-- Over the reshaped input and bias, `stackedOf` is `stacked`. -/
theorem stackedOf_reshapes (X : SInp.Idx → EReal) (W : SBlk.Idx → EReal) (β : SBias.Idx → EReal)
    (h0 : SInp.ShapeCasts SStk) (h2 : SBias.ShapeCasts SCol) :
    stackedOf W (shapeCast SStk X h0) (shapeCast SCol β h2) = stacked X W β := by
  funext i
  unfold stackedOf stacked entryOf entry
  rw [reshape_bias_apply]
  refine congrArg (· + _) (Finset.sum_congr rfl fun j _ => ?_)
  rw [reshape_inp_apply]

/-- A column `[a, 1]` broadcast to `[a, b]` reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.BlockLinear

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelBlock.lean ====
/-
  WHAT THE KERNEL BODY STORES, AT AN ENTRY. At a grid point the body loads a 1 × 256 × 256 block of weights, a
  1 × 256 × 2048 tile of the grouped input and a 1 × 256 × 1 column of bias, multiplies the weights by the tile into a zero
  accumulator (the casts to bf16 are the identity on extended reals), adds the column broadcast along the 2048 columns, and
  stores the 1 × 256 × 2048 result. At (0, p, q) the stored value is (Σ_j w(0, p, j) · x(0, j, q)) + β(0, p, 0).
-/
import proofs.«133730_j90752658965115_1_alg».proof.Proof.Gen.KernelIdeal.Skeleton
import proofs.«133730_j90752658965115_1_alg».proof.Proof.BlockLinearSpec
import proofs.«133730_j90752658965115_1_alg».proof.Proof.LibPlainMatmul
import Idealize.ShloMosaic.Lib.ValueLayout

open scoped BigOperators

noncomputable section

namespace Cert.KernelIdeal.BlockValue

open Cert.KernelIdeal Cert.KernelIdeal.Gen Cert.BlockLinear
open Idealize.ShloMosaic Idealize.ShloMosaic.ValueIdx

/-- The body's stored value at (u, p, q): row p of the weights against column q of the tile, plus the bias of row p. -/
theorem pay_apply (x0 : Vec Ideal S1x256x256 .f32) (x1 : Vec Ideal S1x256x2048 .f32) (x2 : Vec Ideal S1x256x1 .f32)
    (u : Fin 1) (p : Fin 256) (q : Fin 2048) :
    k0_pay1 x0 x1 x2 (ix3 u p q)
      = (∑ j : Fin 256, x0 (ix3 (0 : Fin 1) p j) * x1 (ix3 (0 : Fin 1) j q)) + x2 (ix3 (0 : Fin 1) p (0 : Fin 1)) := by
  unfold k0_pay1
  rw [shapeCast_ab_1ab_apply, addf_apply,
    PlainMatmul.matmul_zero_apply dot_S256x256_S256x2048_S256x2048_1_0_0_1_n_n dot_S256x256_S256x2048_S256x2048_1_0_0_1_n_n_wf rfl,
    broadcastTo_a1_ab_apply, shapeCast_1ab_ab_apply]
  refine congrArg (· + _) (Finset.sum_congr rfl fun j _ => ?_)
  rw [truncf_apply, truncf_apply, shapeCast_1ab_ab_apply, shapeCast_1ab_ab_apply]

end Cert.KernelIdeal.BlockValue

end
-- ==== Proof.KernelValue.lean ====
/-
  THE ARRAY THE KERNEL LEAVES. The grid has 8 × 4 points; point (k, c) stages block k of the weights, the tile of
  group k's rows at columns [2048·c, 2048·c + 2048) of the grouped input, the bias column of group k, and writes the tile
  of the output at the same place. By `pay_apply` the tile written at (k, c) is the restriction of
  `stackedOf weights grouped-input bias-column` to that tile; the 32 tiles cover the 8 × 256 × 8192 output, so the output
  array ends holding `stackedOf` of the three staged arrays. The grouped input and the bias column are the two reshapes
  @main does before the call, so the output is `stacked` of the kernel's arguments.
-/
import proofs.«133730_j90752658965115_1_alg».proof.Proof.Gen.KernelIdeal.Frame
import proofs.«133730_j90752658965115_1_alg».proof.Proof.KernelBlock

set_option maxRecDepth 16384

open scoped BigOperators

noncomputable section

namespace Cert.KernelIdeal.BlockValue

open Cert.KernelIdeal Cert.KernelIdeal.Gen Cert.BlockLinear
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem origin3 : (![0, 0, 0] : Fin 3 → Nat) = fun _ => 0 := funext fun a => by fin_cases a <;> rfl

/-- The printed index maps over the 32 points: the weights and the bias column move with the output's group index only,
    the input tile moves with the output tile, and the output's block index ranges over 8 × 1 × 4. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) = 0 ∧ win0_3.index t (2 : Fin 3) ≤ 3 :=
  (by decide +kernel : ∀ t : Fin grid0.N, _)

/-- Every (group, column tile) is some point's output block. -/
theorem idx_onto : ∀ (k : Fin 8) (cb : Fin 4), ∃ t : Fin cfg0.N, win0_3.index t = ![k.val, 0, cb.val] :=
  (by decide +kernel : ∀ (k : Fin 8) (cb : Fin 4), ∃ t : Fin grid0.N, win0_3.index t = ![k.val, 0, cb.val])

/-- The stored tile is the restriction of `stackedOf`: stated over any blocks that are the staged arrays' at group k
    and column tile cb. -/
theorem tile_entry (x0 : Vec Ideal S1x256x256 .f32) (x1 : Vec Ideal S1x256x2048 .f32) (x2 : Vec Ideal S1x256x1 .f32)
    (W : SBlk.Idx → EReal) (X3 : SStk.Idx → EReal) (β3 : SCol.Idx → EReal) (k : Fin 8) (cb : Fin 4)
    (h0 : ∀ (p j : Fin 256), x0 (ix3 (0 : Fin 1) p j) = W (ix3 k p j))
    (h1 : ∀ (j : Fin 256) (q : Fin 2048), x1 (ix3 (0 : Fin 1) j q) = X3 (ix3 k j ⟨cb.val * 2048 + q.val, by omega⟩))
    (h2 : ∀ p : Fin 256, x2 (ix3 (0 : Fin 1) p (0 : Fin 1)) = β3 (ix3 k p (0 : Fin 1)))
    (y : S1x256x2048.Idx) :
    k0_pay1 x0 x1 x2 y
      = entryOf W X3 β3 k ⟨(y 1).val, (y 1).isLt⟩ ⟨cb.val * 2048 + (y 2).val, by have : (y 2).val < 2048 := (y 2).isLt; omega⟩ := by
  obtain ⟨u, p, q, rfl⟩ : ∃ (u : Fin 1) (p : Fin 256) (q : Fin 2048), y = ix3 u p q := ⟨y 0, y 1, y 2, eq_ix3 y⟩
  rw [pay_apply, h2]
  unfold entryOf
  refine congrArg (· + _) (Finset.sum_congr rfl fun j _ => ?_)
  rw [h0, h1]

/-- WHAT POINT t WRITES BACK is tile t of `stackedOf` of the three staged arrays. -/
theorem flushed_eq (c : Dev nD) (t : Fin cfg0.N) :
    (dats m 0 c).flushed 3 t
      = ((cfg0.win 3).blk t).view.read (Elt Ideal) (stackedOf (V m c main_arg1) (V m c main_v0) (V m c main_v1)) := by
  show (cfg0.win 3).cut (grid0.coords t) ((dats m 0 c).after 3 t) = _
  rw [after0_3]
  unfold out0_3
  rw [View.canon_unit_zero origin3]
  simp only [View.ld_unit_zero (S := S1x256x256) origin3, View.ld_unit_zero (S := S1x256x2048) origin3,
    View.ld_unit_zero (S := S1x256x1) origin3]
  obtain ⟨a0, a1, a2, b0, b1, b2, c0, c1, c2, d0, d1, d2⟩ := idx_facts t
  funext y
  have hy0 : (y 0).val < 1 := (y 0).isLt
  have hy1 : (y 1).val < 256 := (y 1).isLt
  have hy2 : (y 2).val < 2048 := (y 2).isLt
  refine (tile_entry (iblk m c 0 t) (iblk m c 1 t) (iblk m c 2 t) (V m c main_arg1) (V m c main_v0) (V m c main_v1)
    ⟨win0_3.index t (0 : Fin 3), by omega⟩ ⟨win0_3.index t (2 : Fin 3), by omega⟩ ?_ ?_ ?_ y).trans ?_
  · intro p j
    have e : ((cfg0.win 0).blk t).view.emb (ix3 (0 : Fin 1) p j)
        = ix3 (⟨win0_3.index t (0 : Fin 3), by omega⟩ : Fin 8) p j := by
      funext a; apply Fin.ext
      match a with
      | ⟨0, _⟩ => show win0_0.index t (0 : Fin 3) * 1 + 1 * 0 = win0_3.index t (0 : Fin 3); omega
      | ⟨1, _⟩ => show win0_0.index t (1 : Fin 3) * 256 + 1 * p.val = p.val; omega
      | ⟨2, _⟩ => show win0_0.index t (2 : Fin 3) * 256 + 1 * j.val = j.val; omega
    show V m c main_arg1 (((cfg0.win 0).blk t).view.emb (ix3 (0 : Fin 1) p j)) = _
    rw [e]
  · intro j q
    have e : ((cfg0.win 1).blk t).view.emb (ix3 (0 : Fin 1) j q)
        = ix3 (⟨win0_3.index t (0 : Fin 3), by omega⟩ : Fin 8) j
            (⟨win0_3.index t (2 : Fin 3) * 2048 + q.val, by have := q.isLt; omega⟩ : Fin 8192) := by
      funext a; apply Fin.ext
      match a with
      | ⟨0, _⟩ => show win0_1.index t (0 : Fin 3) * 1 + 1 * 0 = win0_3.index t (0 : Fin 3); omega
      | ⟨1, _⟩ => show win0_1.index t (1 : Fin 3) * 256 + 1 * j.val = j.val; omega
      | ⟨2, _⟩ => show win0_1.index t (2 : Fin 3) * 2048 + 1 * q.val = win0_3.index t (2 : Fin 3) * 2048 + q.val; omega
    show V m c main_v0 (((cfg0.win 1).blk t).view.emb (ix3 (0 : Fin 1) j q)) = _
    rw [e]
  · intro p
    have e : ((cfg0.win 2).blk t).view.emb (ix3 (0 : Fin 1) p (0 : Fin 1))
        = ix3 (⟨win0_3.index t (0 : Fin 3), by omega⟩ : Fin 8) p (0 : Fin 1) := by
      funext a; apply Fin.ext
      match a with
      | ⟨0, _⟩ => show win0_2.index t (0 : Fin 3) * 1 + 1 * 0 = win0_3.index t (0 : Fin 3); omega
      | ⟨1, _⟩ => show win0_2.index t (1 : Fin 3) * 256 + 1 * p.val = p.val; omega
      | ⟨2, _⟩ => show win0_2.index t (2 : Fin 3) * 1 + 1 * 0 = 0; omega
    show V m c main_v1 (((cfg0.win 2).blk t).view.emb (ix3 (0 : Fin 1) p (0 : Fin 1))) = _
    rw [e]
  · have e0 : ((((cfg0.win 3).blk t).view.emb y) 0).val = win0_3.index t (0 : Fin 3) := by
      show win0_3.index t (0 : Fin 3) * 1 + 1 * (y 0).val = _; omega
    have e1 : ((((cfg0.win 3).blk t).view.emb y) 1).val = (y 1).val := by
      show win0_3.index t (1 : Fin 3) * 256 + 1 * (y 1).val = _; omega
    have e2 : ((((cfg0.win 3).blk t).view.emb y) 2).val = win0_3.index t (2 : Fin 3) * 2048 + (y 2).val := by
      show win0_3.index t (2 : Fin 3) * 2048 + 1 * (y 2).val = _; omega
    show _ = stackedOf (V m c main_arg1) (V m c main_v0) (V m c main_v1) (((cfg0.win 3).blk t).view.emb y)
    unfold stackedOf
    exact congr (congr (congrArg (entryOf _ _ _) (Fin.ext e0.symm)) (Fin.ext e1.symm)) (Fin.ext e2.symm)

/-- An index of the output is in point t's tile iff each coordinate is in the tile's range on its axis. -/
theorem mem_tile (t : Fin cfg0.N) (i : S8x256x8192.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v2).slice (win0_3.rect t)).set ↔ _
  rw [View.set_slice_whole, Rect.mem_set_unit]
  exact Iff.rfl

/-- The 32 tiles cover the output: entry (k, r, b) lies in the tile of group k and column tile b / 2048. -/
theorem covered (i : S8x256x8192.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 8192 := (i 2).isLt
  obtain ⟨t, ht⟩ := idx_onto ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_tile]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 2048 ≤ (i 2).val ∧ (i 2).val < win0_3.index t (2 : Fin 3) * 2048 + 2048
    omega

/-- THE OUTPUT ARRAY after the region: `stackedOf` of the three staged arrays as the region finds them. -/
theorem output_eq (c : Dev nD) :
    (dats m 0 c).arrAt 3 cfg0.N = stackedOf (V m c main_arg1) (V m c main_v0) (V m c main_v1) :=
  (dats m 0 c).arrAt_eq_of_cover 3 _ (fun t _ => flushed_eq m c t) covered

/-- The region finds the grouped input: the first reshape of @main. -/
theorem grouped_input (c : Dev nD) :
    (V m c main_v0 : S8x256x8192.Idx → EReal)
      = shapeCast S8x256x8192 (m ((c : Thread nD τ).loc main_arg0)) shapeCasts_S2048x8192_S8x256x8192 := by
  show StableHlo.after hostOps0 (fun b => m (c, b)) (Proc.devRef .tc main_v0) = _
  after_results
  rfl

/-- … and the bias column: the second. -/
theorem bias_column (c : Dev nD) :
    (V m c main_v1 : S8x256x1.Idx → EReal)
      = shapeCast S8x256x1 (m ((c : Thread nD τ).loc main_arg2)) shapeCasts_S2048_S8x256x1 := by
  show StableHlo.after hostOps0 (fun b => m (c, b)) (Proc.devRef .tc main_v1) = _
  after_results
  rfl

/-- The output array is `stacked` of the kernel's arguments. -/
theorem output_stacked (c : Dev nD) :
    (dats m 0 c).arrAt 3 cfg0.N
      = stacked (m ((c : Thread nD τ).loc main_arg0)) (m ((c : Thread nD τ).loc main_arg1)) (m ((c : Thread nD τ).loc main_arg2)) := by
  rw [output_eq, grouped_input, bias_column, V_main_arg1]
  exact stackedOf_reshapes _ _ _ _ _

/-- The result of @main: the reshape after the region, of the output array. -/
theorem result_eq (c : Dev nD) :
    Pipeline.afterTail₀ cfgs (dats m) 0 (V0 m) [hostOps1] c main_v3
      = shapeCast S2048x8192 (stacked (m ((c : Thread nD τ).loc main_arg0)) (m ((c : Thread nD τ).loc main_arg1))
          (m ((c : Thread nD τ).loc main_arg2))) shapeCasts_S8x256x8192_S2048x8192 := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 3).trans
    (output_stacked m c)
  funext i
  show shapeCast S2048x8192 (Pipeline.withArrays spec0 c (V0 m c) (fun w => (dats m 0 c).arrAt w cfg0.N)
    (Proc.devRef .tc (Pipeline.arrRef spec0 3))) shapeCasts_S8x256x8192_S2048x8192 i = _
  rw [e]

/-- THE KERNEL'S RUN: every weakly fair execution ends with @main's result at the reshape of `stacked` of the
    arguments, and the arguments as they were. -/
theorem run : θ_run defs (onTc (τ := τ) (main (F := Ideal))) ⟨m, fun _ => 0, ρ⟩ fun r => ∀ c : Dev nD,
      r.2.mem ((c.tc : Thread nD τ).loc main_v3)
        = shapeCast S2048x8192 (stacked (m ((c.tc : Thread nD τ).loc main_arg0)) (m ((c.tc : Thread nD τ).loc main_arg1))
            (m ((c.tc : Thread nD τ).loc main_arg2))) shapeCasts_S8x256x8192_S2048x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.BlockValue

end
-- ==== Proof.ReferenceValue.lean ====
/-
  THE REFERENCE COMPUTES THE BLOCK-DIAGONAL PRODUCT PLUS BIAS. The reference reshapes the input to 8 × 256 × 8192,
  contracts the blocks' last axis with the grouped rows (batch axis k), reshapes the product back to 2048 × 8192 and adds
  the bias broadcast along the columns. Read at an entry (row, b) of the result, with row = 256·k + r:
  the product's reshape reads the stacked product at (k, r, b); that is Σ_j blocks[k, r, j] · inp3[k, j, b]; the grouped
  input at (k, j, b) is the input at row 256·k + j; and the broadcast bias is bias[row]. So the result is the row-major
  reshape of `stacked inp blocks bias`.
-/
import proofs.«133730_j90752658965115_1_alg».proof.Proof.Gen.ReferenceIdeal.Read
import proofs.«133730_j90752658965115_1_alg».proof.Proof.BlockLinearSpec

open scoped BigOperators

noncomputable section

namespace Cert.ReferenceIdeal.RefValue

open Cert.ReferenceIdeal Cert.ReferenceIdeal.Gen Cert.ReferenceIdeal.Read Cert.BlockLinear
open Idealize.ShloMosaic Idealize.ShloMosaic.ValueIdx

/-- The left operand of the contraction at output index I and contracted coordinate j: blocks at (I₀, I₁, j). -/
theorem lidx_eq (I : S8x256x8192.Idx) (j : Fin 256) :
    lidx_main_v1 I j = ix3 (⟨(I 0).val, (I 0).isLt⟩ : Fin 8) (⟨(I 1).val, (I 1).isLt⟩ : Fin 256) j :=
  funext fun a => by
    match a with
    | ⟨0, _⟩ => rfl
    | ⟨1, _⟩ => rfl
    | ⟨2, _⟩ => rfl

/-- The right operand there is the grouped input at (I₀, j, I₂), which the reshape reads at row 256·I₀ + j. -/
theorem ridx_row_eq (I : S8x256x8192.Idx) (j : Fin 256) :
    idx_main_v0 (ridx_main_v1 I j) = ix2 (rowOf ⟨(I 0).val, (I 0).isLt⟩ j) (⟨(I 2).val, (I 2).isLt⟩ : Fin 8192) :=
  funext fun a => Fin.ext (by
    have h0 : (I 0).val < 8 := (I 0).isLt
    have h2 : (I 2).val < 8192 := (I 2).isLt
    have hj : j.val < 256 := j.isLt
    match a with
    | ⟨0, _⟩ =>
      show (((I 0).val * 256 + j.val) * 8192 + (I 2).val) / 8192 = (I 0).val * 256 + j.val
      omega
    | ⟨1, _⟩ =>
      show (((I 0).val * 256 + j.val) * 8192 + (I 2).val) % 8192 = (I 2).val
      omega)

/-- The broadcast bias at (row, b) is the bias entry of the row, and the row is 256·k + r for the stacked index
    (k, r, b) the final reshape reads. -/
theorem bias_idx_eq (i : S2048x8192.Idx) :
    idx_main_v3 (idx_main_v4 i)
      = ix1 (rowOf ⟨(idx_main_v2 i 0).val, (idx_main_v2 i 0).isLt⟩ ⟨(idx_main_v2 i 1).val, (idx_main_v2 i 1).isLt⟩) :=
  funext fun a => Fin.ext (by
    have h0 : (i 0).val < 2048 := (i 0).isLt
    have h1 : (i 1).val < 8192 := (i 1).isLt
    match a with
    | ⟨0, _⟩ =>
      show (i 0).val = ((i 0).val * 8192 + (i 1).val) / 2097152 * 256 + ((i 0).val * 8192 + (i 1).val) / 8192 % 256
      omega)

/-- The final reshape of any stacked array reads (k, r, b) at row-major position (row, b). -/
theorem unstack_apply (Y : S8x256x8192.Idx → EReal) (i : S2048x8192.Idx) :
    shapeCast S2048x8192 Y shapeCasts_S8x256x8192_S2048x8192 i = Y (idx_main_v2 i) :=
  shapeCast_apply Y shapeCasts_S8x256x8192_S2048x8192 i (idx_main_v2 i) (by
    rewrite [Shape.rowMajor_val_three, Shape.rowMajor_val_two]
    have h0 : (i 0).val < 2048 := (i 0).isLt
    have h1 : (i 1).val < 8192 := (i 1).isLt
    show (((i 0).val * 8192 + (i 1).val) / 2097152 * 256 + ((i 0).val * 8192 + (i 1).val) / 8192 % 256) * 8192
        + ((i 0).val * 8192 + (i 1).val) % 8192 = (i 0).val * 8192 + (i 1).val
    omega)

/-- The reference's result is the reshape of `stacked` of its three arguments. -/
theorem result_eq (x0 : (⟨S2048x8192, .f32⟩ : BufTy).Contents (Elt Ideal)) (x1 : (⟨S8x256x256, .f32⟩ : BufTy).Contents (Elt Ideal))
    (x2 : (⟨S2048, .f32⟩ : BufTy).Contents (Elt Ideal)) :
    val_main_v5 (F := Ideal) x0 x1 x2 = shapeCast S2048x8192 (stacked x0 x1 x2) shapeCasts_S8x256x8192_S2048x8192 := by
  funext i
  rw [unstack_apply, val_main_v5_apply, val_main_v2_apply, val_main_v1_apply, val_main_v4_apply, val_main_v3_apply,
    bias_idx_eq]
  unfold stacked entry
  refine congrArg (· + _) (Finset.sum_congr rfl fun j _ => ?_)
  rw [val_main_v0_apply, lidx_eq, ridx_row_eq]

end Cert.ReferenceIdeal.RefValue

end
-- ==== Proof.lean ====
/- The proof of `Cert.Claim`: the kernel and its idealization run and keep their arguments (the generated frames);
   the reference runs and keeps its arguments (its generated run, the result dropped); the idealization changed no
   operation, so `preserves` is `True`; and at the ideal values both programs end with the row-major reshape of
   `Cert.BlockLinear.stacked inp blocks bias`: out[256·k + r, b] = (Σ_j blocks[k, r, j] · inp[256·k + j, b]) + bias[256·k + r].
   The kernel's side is `Cert.KernelIdeal.BlockValue.run`, the reference's `Cert.ReferenceIdeal.RefValue.result_eq` over
   its generated run; both sums are over the same products in the same order, so no finiteness is used. -/
import proofs.«133730_j90752658965115_1_alg».proof.Defs
import proofs.«133730_j90752658965115_1_alg».proof.Proof.Gen.Kernel
import proofs.«133730_j90752658965115_1_alg».proof.Proof.Gen.Kernel.Skeleton
import proofs.«133730_j90752658965115_1_alg».proof.Proof.Gen.Kernel.Launch
import proofs.«133730_j90752658965115_1_alg».proof.Proof.Gen.Kernel.Points
import proofs.«133730_j90752658965115_1_alg».proof.Proof.Gen.Kernel.Frame
import proofs.«133730_j90752658965115_1_alg».proof.Proof.Gen.KernelIdeal
import proofs.«133730_j90752658965115_1_alg».proof.Proof.Gen.KernelIdeal.Skeleton
import proofs.«133730_j90752658965115_1_alg».proof.Proof.Gen.KernelIdeal.Launch
import proofs.«133730_j90752658965115_1_alg».proof.Proof.Gen.KernelIdeal.Points
import proofs.«133730_j90752658965115_1_alg».proof.Proof.Gen.KernelIdeal.Frame
import proofs.«133730_j90752658965115_1_alg».proof.Proof.Gen.ReferenceIdeal
import proofs.«133730_j90752658965115_1_alg».proof.Proof.Gen.Pre_finite_inputs
import proofs.«133730_j90752658965115_1_alg».proof.Proof.Gen.ReferenceIdeal.Run
import proofs.«133730_j90752658965115_1_alg».proof.Proof.Gen.ReferenceIdeal.Read
import proofs.«133730_j90752658965115_1_alg».proof.Proof.KernelValue
import proofs.«133730_j90752658965115_1_alg».proof.Proof.ReferenceValue
import Idealize.ShloMosaic.Adequacy
import Idealize.ShloMosaic.Init

noncomputable section

namespace Cert.Proof

open Idealize.ShloMosaic Idealize.SL.Sem Cert.Kernel

/-- At the ideal values the kernel ends at the reshape of `stacked` of its arguments and the reference at the reshape of
    `stacked` of its own, which agree with the kernel's. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
